-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x64 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S1000000 32) (main_arg2 : IVec S1000000 32) (main_arg3 : FVec F S64x64 .f32) (main_arg4 : FVec F S64x64 .f32) (main_arg5 : FVec F S64 .f32) (main_arg6 : FVec F S64x64 .f32) (main_arg7 : FVec F S64x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_v13 main_v16
-- ==== Kernel.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S1x64 : Shape := ⟨2, ![1, 64]⟩
abbrev S5000x64 : Shape := ⟨2, ![5000, 64]⟩

abbrev nBuf : Space → Nat
  | .hbm => 63
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000x64, .f32⟩
  | .hbm, ⟨18, _⟩ => ⟨S_, .f32⟩
  | .hbm, ⟨19, _⟩ => ⟨S100000x64, .f32⟩
  | .hbm, ⟨20, _⟩ => ⟨S1000000x1, .i32⟩
  | .hbm, ⟨21, _⟩ => ⟨S100000x64, .f32⟩
  | .hbm, ⟨22, _⟩ => ⟨S_, .f32⟩
  | .hbm, ⟨23, _⟩ => ⟨S1000000, .f32⟩
  | .hbm, ⟨24, _⟩ => ⟨S_, .f32⟩
  | .hbm, ⟨25, _⟩ => ⟨S100000, .f32⟩
  | .hbm, ⟨26, _⟩ => ⟨S1000000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S1x64, .f32⟩
  | .hbm, ⟨35, _⟩ => ⟨S100000x64, .f32⟩
  | .hbm, ⟨36, _⟩ => ⟨S_, .i32⟩
  | .hbm, ⟨37, _⟩ => ⟨S1000000, .i32⟩
  | .hbm, ⟨38, _⟩ => ⟨S1000000, .i1⟩
  | .hbm, ⟨39, _⟩ => ⟨S_, .i32⟩
  | .hbm, ⟨40, _⟩ => ⟨S1000000, .i32⟩
  | .hbm, ⟨41, _⟩ => ⟨S1000000, .i32⟩
  | .hbm, ⟨42, _⟩ => ⟨S1000000, .i32⟩
  | .hbm, ⟨43, _⟩ => ⟨S1000000x1, .i32⟩
  | .hbm, ⟨44, _⟩ => ⟨S1000000x64, .f32⟩
  | .hbm, ⟨45, _⟩ => ⟨S_, .f32⟩
  | .hbm, ⟨46, _⟩ => ⟨S100000x64, .f32⟩
  | .hbm, ⟨47, _⟩ => ⟨S1000000x1, .i32⟩
  | .hbm, ⟨48, _⟩ => ⟨S100000x64, .f32⟩
  | .hbm, ⟨49, _⟩ => ⟨S_, .f32⟩
  | .hbm, ⟨50, _⟩ => ⟨S1000000, .f32⟩
  | .hbm, ⟨51, _⟩ => ⟨S_, .f32⟩
  | .hbm, ⟨52, _⟩ => ⟨S100000, .f32⟩
  | .hbm, ⟨53, _⟩ => ⟨S1000000x1, .i32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 74
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000x64, .f32⟩
  | .hbm, ⟨18, _⟩ => ⟨S_, .f32⟩
  | .hbm, ⟨19, _⟩ => ⟨S100000x64, .f32⟩
  | .hbm, ⟨20, _⟩ => ⟨S1000000x1, .i32⟩
  | .hbm, ⟨21, _⟩ => ⟨S100000x64, .f32⟩
  | .hbm, ⟨22, _⟩ => ⟨S_, .f32⟩
  | .hbm, ⟨23, _⟩ => ⟨S1000000, .f32⟩
  | .hbm, ⟨24, _⟩ => ⟨S_, .f32⟩
  | .hbm, ⟨25, _⟩ => ⟨S100000, .f32⟩
  | .hbm, ⟨26, _⟩ => ⟨S1000000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S1x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S_, .f32⟩
  | .hbm, ⟨41, _⟩ => ⟨S100000x64, .f32⟩
  | .hbm, ⟨42, _⟩ => ⟨S100000x64, .f32⟩
  | .hbm, ⟨43, _⟩ => ⟨S_, .i32⟩
  | .hbm, ⟨44, _⟩ => ⟨S1000000, .i32⟩
  | .hbm, ⟨45, _⟩ => ⟨S1000000, .i1⟩
  | .hbm, ⟨46, _⟩ => ⟨S_, .i32⟩
  | .hbm, ⟨47, _⟩ => ⟨S1000000, .i32⟩
  | .hbm, ⟨48, _⟩ => ⟨S1000000, .i32⟩
  | .hbm, ⟨49, _⟩ => ⟨S1000000, .i32⟩
  | .hbm, ⟨50, _⟩ => ⟨S1000000x1, .i32⟩
  | .hbm, ⟨51, _⟩ => ⟨S1000000x64, .f32⟩
  | .hbm, ⟨52, _⟩ => ⟨S_, .f32⟩
  | .hbm, ⟨53, _⟩ => ⟨S100000x64, .f32⟩
  | .hbm, ⟨54, _⟩ => ⟨S1000000x1, .i32⟩
  | .hbm, ⟨55, _⟩ => ⟨S100000x64, .f32⟩
  | .hbm, ⟨56, _⟩ => ⟨S_, .f32⟩
  | .hbm, ⟨57, _⟩ => ⟨S1000000, .f32⟩
  | .hbm, ⟨58, _⟩ => ⟨S_, .f32⟩
  | .hbm, ⟨59, _⟩ => ⟨S100000, .f32⟩
  | .hbm, ⟨60, _⟩ => ⟨S1000000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  What both programs compute, as functions of the argument arrays over the extended reals.

  A two-layer mean-aggregating graph network on 100000 nodes with 64 features. One layer sends node
  features `x` to  x · Wself + mean(x) · Wneigh + b,  where row `p` of `mean(x)` is the sum of the rows
  `x[src e]` over the edges `e` with `dst e = p`, divided by max(deg p, 1). The first layer is followed by
  max(·, 0), the second is not. The aggregation `mean` is carried as ONE function of its operand (`agg`):
  both programs apply the same host operations, so nothing here ever looks inside it.
-/
import Idealize.ShloMosaic.PureOps.Ideal
import Idealize.ShloMosaic.Lib.ValueIdx

noncomputable section

namespace Cert.Sage

open Idealize.ShloMosaic Idealize.ShloMosaic.ValueIdx

abbrev S0 : Shape := ⟨0, ![]⟩
abbrev Nodes : Shape := ⟨2, ![100000, 64]⟩
abbrev Wt : Shape := ⟨2, ![64, 64]⟩
abbrev Bias : Shape := ⟨1, ![64]⟩
abbrev Edges : Shape := ⟨1, ![1000000]⟩
abbrev EdgeCol : Shape := ⟨2, ![1000000, 1]⟩
abbrev EdgeRows : Shape := ⟨2, ![1000000, 64]⟩
abbrev Deg : Shape := ⟨1, ![100000]⟩
abbrev DegCol : Shape := ⟨2, ![100000, 1]⟩

/-- The shape records and shape facts the aggregation's host operations cite; each program prints its own copy. -/
structure AggDims where
  gather : GatherDims Nodes EdgeCol EdgeRows
  scatRows : ScatterDims Nodes EdgeCol EdgeRows
  scatDeg : ScatterDims Deg EdgeCol Edges
  bE : S0.BroadcastsInDim Edges (![] : Fin 0 → Fin Edges.rank)
  bECol : Edges.BroadcastsInDim EdgeCol (![0] : Fin 1 → Fin EdgeCol.rank)
  bNodes : S0.BroadcastsInDim Nodes (![] : Fin 0 → Fin Nodes.rank)
  bDeg : S0.BroadcastsInDim Deg (![] : Fin 0 → Fin Deg.rank)
  bDegCol : Deg.BroadcastsInDim DegCol (![0] : Fin 1 → Fin DegCol.rank)
  bDegNodes : DegCol.BroadcastsInDim Nodes (![0, 1] : Fin 2 → Fin Nodes.rank)

/-- Mean aggregation over in-neighbours, exactly as the host operations compose it: negative source indices
    wrapped by 100000, rows gathered, scatter-added by destination into zeros, divided row by row by
    max(scatter-added ones, 1). -/
def agg (D : AggDims) (src dst : Vec Ideal Edges .i32) (x : FVec Ideal Nodes .f32) : FVec Ideal Nodes .f32 :=
  Host.divf (F := Ideal)
    (Host.scatterAdd D.scatRows (broadcastInDim Nodes ![] D.bNodes (constant S0 .f32 0x00000000#32))
      (broadcastInDim EdgeCol ![0] D.bECol dst)
      (Host.gather D.gather x
        (broadcastInDim EdgeCol ![0] D.bECol
          (select (cmpi .slt src (broadcastInDim Edges ![] D.bE (constantI S0 32 0#32)))
            (addi src (broadcastInDim Edges ![] D.bE (constantI S0 32 100000#32))) src))))
    (broadcastInDim Nodes ![0, 1] D.bDegNodes
      (broadcastInDim DegCol ![0] D.bDegCol
        (maximumf
          (Host.scatterAdd D.scatDeg (broadcastInDim Deg ![] D.bDeg (constant S0 .f32 0x00000000#32))
            (broadcastInDim EdgeCol ![0] D.bECol dst)
            (broadcastInDim Edges ![] D.bE (constant S0 .f32 0x3F800000#32)))
          (broadcastInDim Deg ![] D.bDeg (constant S0 .f32 0x3F800000#32)))))

/-- Entry (p, q) of  x · Wself + mean · Wneigh + b. -/
def lin (x mean : FVec Ideal Nodes .f32) (ws wn : FVec Ideal Wt .f32) (b : FVec Ideal Bias .f32)
    (p : Fin 100000) (q : Fin 64) : EReal :=
  (∑ k : Fin 64, x (ix2 p k) * ws (ix2 k q)) + (∑ k : Fin 64, mean (ix2 p k) * wn (ix2 k q)) + b (ix1 q)

/-- The first layer: the linear stage followed by max(·, 0). -/
def hidden (x mean : FVec Ideal Nodes .f32) (ws wn : FVec Ideal Wt .f32) (b : FVec Ideal Bias .f32) : FVec Ideal Nodes .f32 :=
  fun i => max (lin x mean ws wn b (i 0) (i 1)) (Ideal.ofBits .f32 0x00000000#32)

/-- The second layer: the linear stage alone. -/
def output (x mean : FVec Ideal Nodes .f32) (ws wn : FVec Ideal Wt .f32) (b : FVec Ideal Bias .f32) : FVec Ideal Nodes .f32 :=
  fun i => lin x mean ws wn b (i 0) (i 1)

/-- The whole network over an aggregation `A`: the second layer of the first layer's output. -/
def net (A : FVec Ideal Nodes .f32 → FVec Ideal Nodes .f32) (x : FVec Ideal Nodes .f32)
    (ws1 wn1 : FVec Ideal Wt .f32) (b1 : FVec Ideal Bias .f32) (ws2 wn2 : FVec Ideal Wt .f32) (b2 : FVec Ideal Bias .f32) :
    FVec Ideal Nodes .f32 :=
  output (hidden x (A x) ws1 wn1 b1) (A (hidden x (A x) ws1 wn1 b1)) ws2 wn2 b2

/-- The sum of three extended reals does not depend on which two are added first. -/
theorem add_swap_last (a b c : EReal) : a + b + c = a + c + b := add_right_comm a b c

end Cert.Sage

end
-- ==== Proof.KHost.lean ====
import proofs.«107491_j6571299963288_1_alg».proof.Proof.Gen.KernelIdeal.Frame
import proofs.«107491_j6571299963288_1_alg».proof.Proof.Spec
import Idealize.ShloMosaic.Lib.StableHlo.Run
import Idealize.ShloMosaic.Lib.Pipeline.Value
import Idealize.ShloMosaic.Lib.ValueIdx
import Idealize.ShloMosaic.Lib.ValueLayout

/-!
  What the two kernel regions find in their input arrays, over the extended reals.

  Before each region the program aggregates the node features over in-neighbours and reshapes the layer's bias
  to one row. Read at the region's entry: the aggregated array is `Cert.Sage.agg` of the edge arrays and of the
  features the layer takes (the launch features for the first layer, the first region's output for the second),
  the bias row is the bias entry by entry, and the features and the weights are the arrays as they were.

  Each stretch of host operations is first read over ANY contents `W` of the buffers it starts from (what its
  last aggregation step and its reshape leave, and which buffers it does not write); the two boundaries of the
  run are then instances, the edge arrays and the weights walked back to the launch memory.
-/

set_option maxRecDepth 16384

noncomputable section

namespace Cert.KernelIdeal.Hand

open Cert.KernelIdeal Cert.KernelIdeal.Gen
open Idealize.ShloMosaic Idealize.ShloMosaic.TcCoe Idealize.ShloMosaic.ValueIdx

/-- The shape records and shape facts the kernel program's aggregation cites. -/
def dims : Cert.Sage.AggDims :=
  ⟨gather_S100000x64_S1000000x1_S1000000x64_1_0_n_n_0_1_164,
   scatter_S100000x64_S1000000x1_S1000000x64_1_0_0_1,
   scatter_S100000_S1000000x1_S1000000_n_0_0_1,
   Facts₀.bcast_S_S1000000,
   Facts₀.bcast_S1000000_S1000000x1_0,
   Facts₀.bcast_S_S100000x64,
   Facts₀.bcast_S_S100000,
   Facts₀.bcast_S100000_S100000x1_0,
   Facts₀.bcast_S100000x1_S100000x64_0_1⟩

/-! ## The first stretch, from any contents -/

/-- Its last division leaves the aggregation of the features in argument 0 along the edges in arguments 1, 2. -/
theorem ops0_mean (W : Valuation τ sig (Elt Ideal)) :
    (StableHlo.after hostOps0 W (Proc.devRef .tc main_v18) : FVec Ideal S100000x64 .f32)
      = Cert.Sage.agg dims (W (Proc.devRef .tc main_arg1)) (W (Proc.devRef .tc main_arg2)) (W (Proc.devRef .tc main_arg0)) := by
  after_results_simp
  unfold Cert.Sage.agg dims
  rfl

/-- Its reshape leaves the bias in argument 5 as one row. -/
theorem ops0_bias (W : Valuation τ sig (Elt Ideal)) (q : Fin 64) :
    (StableHlo.after hostOps0 W (Proc.devRef .tc main_v19) : FVec Ideal S1x64 .f32) (ix2 (0 : Fin 1) q)
      = (W (Proc.devRef .tc main_arg5) : FVec Ideal S64 .f32) (ix1 q) := by
  have e : (StableHlo.after hostOps0 W (Proc.devRef .tc main_v19) : FVec Ideal S1x64 .f32)
      = shapeCast S1x64 (W (Proc.devRef .tc main_arg5) : FVec Ideal S64 .f32) Facts₀.shapeCasts_S64_S1x64 := by
    after_results_simp
    rfl
  rw [e]
  exact shapeCast_a_1a_apply _ _ 0 q

/-! It writes none of the argument arrays. -/

theorem ops0_keep_arg0 (W : Valuation τ sig (Elt Ideal)) :
    StableHlo.after hostOps0 W (Proc.devRef .tc main_arg0) = W (Proc.devRef .tc main_arg0) := by
  after_results_simp
theorem ops0_keep_arg1 (W : Valuation τ sig (Elt Ideal)) :
    StableHlo.after hostOps0 W (Proc.devRef .tc main_arg1) = W (Proc.devRef .tc main_arg1) := by
  after_results_simp
theorem ops0_keep_arg2 (W : Valuation τ sig (Elt Ideal)) :
    StableHlo.after hostOps0 W (Proc.devRef .tc main_arg2) = W (Proc.devRef .tc main_arg2) := by
  after_results_simp
theorem ops0_keep_arg3 (W : Valuation τ sig (Elt Ideal)) :
    StableHlo.after hostOps0 W (Proc.devRef .tc main_arg3) = W (Proc.devRef .tc main_arg3) := by
  after_results_simp
theorem ops0_keep_arg4 (W : Valuation τ sig (Elt Ideal)) :
    StableHlo.after hostOps0 W (Proc.devRef .tc main_arg4) = W (Proc.devRef .tc main_arg4) := by
  after_results_simp
theorem ops0_keep_arg6 (W : Valuation τ sig (Elt Ideal)) :
    StableHlo.after hostOps0 W (Proc.devRef .tc main_arg6) = W (Proc.devRef .tc main_arg6) := by
  after_results_simp
theorem ops0_keep_arg7 (W : Valuation τ sig (Elt Ideal)) :
    StableHlo.after hostOps0 W (Proc.devRef .tc main_arg7) = W (Proc.devRef .tc main_arg7) := by
  after_results_simp
theorem ops0_keep_arg8 (W : Valuation τ sig (Elt Ideal)) :
    StableHlo.after hostOps0 W (Proc.devRef .tc main_arg8) = W (Proc.devRef .tc main_arg8) := by
  after_results_simp

/-! ## The second stretch, from any contents -/

/-- Its last division leaves the aggregation of the features in the first region's output along the edges in
    arguments 1, 2. -/
theorem ops1_mean (W : Valuation τ sig (Elt Ideal)) :
    (StableHlo.after hostOps1 W (Proc.devRef .tc main_v39) : FVec Ideal S100000x64 .f32)
      = Cert.Sage.agg dims (W (Proc.devRef .tc main_arg1)) (W (Proc.devRef .tc main_arg2)) (W (Proc.devRef .tc main_v20)) := by
  after_results_simp
  unfold Cert.Sage.agg dims
  rfl

/-- Its reshape leaves the bias in argument 8 as one row. -/
theorem ops1_bias (W : Valuation τ sig (Elt Ideal)) (q : Fin 64) :
    (StableHlo.after hostOps1 W (Proc.devRef .tc main_v40) : FVec Ideal S1x64 .f32) (ix2 (0 : Fin 1) q)
      = (W (Proc.devRef .tc main_arg8) : FVec Ideal S64 .f32) (ix1 q) := by
  have e : (StableHlo.after hostOps1 W (Proc.devRef .tc main_v40) : FVec Ideal S1x64 .f32)
      = shapeCast S1x64 (W (Proc.devRef .tc main_arg8) : FVec Ideal S64 .f32) Facts₀.shapeCasts_S64_S1x64 := by
    after_results_simp
    rfl
  rw [e]
  exact shapeCast_a_1a_apply _ _ 0 q

/-! It writes neither the argument arrays nor the first region's output. -/

theorem ops1_keep_arg1 (W : Valuation τ sig (Elt Ideal)) :
    StableHlo.after hostOps1 W (Proc.devRef .tc main_arg1) = W (Proc.devRef .tc main_arg1) := by
  after_results_simp
theorem ops1_keep_arg2 (W : Valuation τ sig (Elt Ideal)) :
    StableHlo.after hostOps1 W (Proc.devRef .tc main_arg2) = W (Proc.devRef .tc main_arg2) := by
  after_results_simp
theorem ops1_keep_arg6 (W : Valuation τ sig (Elt Ideal)) :
    StableHlo.after hostOps1 W (Proc.devRef .tc main_arg6) = W (Proc.devRef .tc main_arg6) := by
  after_results_simp
theorem ops1_keep_arg7 (W : Valuation τ sig (Elt Ideal)) :
    StableHlo.after hostOps1 W (Proc.devRef .tc main_arg7) = W (Proc.devRef .tc main_arg7) := by
  after_results_simp
theorem ops1_keep_arg8 (W : Valuation τ sig (Elt Ideal)) :
    StableHlo.after hostOps1 W (Proc.devRef .tc main_arg8) = W (Proc.devRef .tc main_arg8) := by
  after_results_simp
theorem ops1_keep_v20 (W : Valuation τ sig (Elt Ideal)) :
    StableHlo.after hostOps1 W (Proc.devRef .tc main_v20) = W (Proc.devRef .tc main_v20) := by
  after_results_simp

variable (m : (ℓ : Loc nD τ sig) → Buf (Elt Ideal) ℓ) (ρ : Dev nD → PrngReg)

/-! ## The first region's entry -/

/-- The first layer's aggregated features: the aggregation of the launch features along the launch edges. -/
theorem V1_mean (c : Dev nD) :
    (V1 (F := Ideal) m ρ c main_v18 : FVec Ideal S100000x64 .f32)
      = Cert.Sage.agg dims (m ((c : Thread nD τ).loc main_arg1)) (m ((c : Thread nD τ).loc main_arg2))
          (m ((c : Thread nD τ).loc main_arg0)) :=
  ops0_mean (W0 m ρ c)

/-- The first layer's bias row, entry by entry. -/
theorem V1_bias (c : Dev nD) (q : Fin 64) :
    (V1 (F := Ideal) m ρ c main_v19 : FVec Ideal S1x64 .f32) (ix2 (0 : Fin 1) q)
      = (m ((c : Thread nD τ).loc main_arg5) : FVec Ideal S64 .f32) (ix1 q) :=
  ops0_bias (W0 m ρ c) q

/-- The features, as launched. -/
theorem V1_x (c : Dev nD) : V1 (F := Ideal) m ρ c main_arg0 = m ((c : Thread nD τ).loc main_arg0) :=
  ops0_keep_arg0 (W0 m ρ c)
/-- The first layer's self weights, as launched. -/
theorem V1_ws (c : Dev nD) : V1 (F := Ideal) m ρ c main_arg3 = m ((c : Thread nD τ).loc main_arg3) :=
  ops0_keep_arg3 (W0 m ρ c)
/-- The first layer's neighbour weights, as launched. -/
theorem V1_wn (c : Dev nD) : V1 (F := Ideal) m ρ c main_arg4 = m ((c : Thread nD τ).loc main_arg4) :=
  ops0_keep_arg4 (W0 m ρ c)

/-! ## The first region's exit -/

/-- The first region's output array holds the fold of the output window's write-backs over the whole grid. -/
theorem V2_x (c : Dev nD) : V2 (F := Ideal) m ρ c main_v20 = (dat0 (V1 m ρ) c).arrAt 5 cfg0.N :=
  W2_arr m ρ c 5

/-- An argument array the first region has no window on is, at the region's exit, as launched: the region
    leaves it alone and the first stretch does not write it. -/
theorem W2_arg1 (c : Dev nD) : W2 (F := Ideal) m ρ c (Proc.devRef .tc main_arg1) = m ((c : Thread nD τ).loc main_arg1) :=
  (W2_of_ne m ρ c main_arg1 (by decide)).trans (ops0_keep_arg1 (W0 m ρ c))
theorem W2_arg2 (c : Dev nD) : W2 (F := Ideal) m ρ c (Proc.devRef .tc main_arg2) = m ((c : Thread nD τ).loc main_arg2) :=
  (W2_of_ne m ρ c main_arg2 (by decide)).trans (ops0_keep_arg2 (W0 m ρ c))
theorem W2_arg6 (c : Dev nD) : W2 (F := Ideal) m ρ c (Proc.devRef .tc main_arg6) = m ((c : Thread nD τ).loc main_arg6) :=
  (W2_of_ne m ρ c main_arg6 (by decide)).trans (ops0_keep_arg6 (W0 m ρ c))
theorem W2_arg7 (c : Dev nD) : W2 (F := Ideal) m ρ c (Proc.devRef .tc main_arg7) = m ((c : Thread nD τ).loc main_arg7) :=
  (W2_of_ne m ρ c main_arg7 (by decide)).trans (ops0_keep_arg7 (W0 m ρ c))
theorem W2_arg8 (c : Dev nD) : W2 (F := Ideal) m ρ c (Proc.devRef .tc main_arg8) = m ((c : Thread nD τ).loc main_arg8) :=
  (W2_of_ne m ρ c main_arg8 (by decide)).trans (ops0_keep_arg8 (W0 m ρ c))

/-! ## The second region's entry -/

/-- The second layer's aggregated features: the aggregation of the first region's output along the launch edges. -/
theorem V3_mean (c : Dev nD) :
    (V3 (F := Ideal) m ρ c main_v39 : FVec Ideal S100000x64 .f32)
      = Cert.Sage.agg dims (m ((c : Thread nD τ).loc main_arg1)) (m ((c : Thread nD τ).loc main_arg2))
          (V2 m ρ c main_v20) := by
  rw [← W2_arg1 m ρ c, ← W2_arg2 m ρ c]
  exact ops1_mean (W2 m ρ c)

/-- The second layer's bias row, entry by entry. -/
theorem V3_bias (c : Dev nD) (q : Fin 64) :
    (V3 (F := Ideal) m ρ c main_v40 : FVec Ideal S1x64 .f32) (ix2 (0 : Fin 1) q)
      = (m ((c : Thread nD τ).loc main_arg8) : FVec Ideal S64 .f32) (ix1 q) := by
  rw [← W2_arg8 m ρ c]
  exact ops1_bias (W2 m ρ c) q

/-- The second layer's features: the first region's output, as the region left it. -/
theorem V3_x (c : Dev nD) : V3 (F := Ideal) m ρ c main_v20 = V2 m ρ c main_v20 :=
  ops1_keep_v20 (W2 m ρ c)
/-- The second layer's self weights, as launched. -/
theorem V3_ws (c : Dev nD) : V3 (F := Ideal) m ρ c main_arg6 = m ((c : Thread nD τ).loc main_arg6) :=
  (ops1_keep_arg6 (W2 m ρ c)).trans (W2_arg6 m ρ c)
/-- The second layer's neighbour weights, as launched. -/
theorem V3_wn (c : Dev nD) : V3 (F := Ideal) m ρ c main_arg7 = m ((c : Thread nD τ).loc main_arg7) :=
  (ops1_keep_arg7 (W2 m ρ c)).trans (W2_arg7 m ρ c)

end Cert.KernelIdeal.Hand

end
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.KBody.lean ====
/-
  The dense stage's body at one entry of a block.

  Each grid point holds a block of 5000 rows of the features and of the aggregated means, both weight
  matrices whole and the bias as one row. Entry (p, q) of what the body stores is
    Σₖ x(p,k)·Wself(k,q) + Σₖ mean(p,k)·Wneigh(k,q) + b(0,q),
  under max(·, 0) in the first call and as it stands in the second: the narrowing to bf16 is the identity on
  extended reals, a product into a zero accumulator is the plain sum over k, and the bias row is repeated down
  the block.
-/
import proofs.«107491_j6571299963288_1_alg».proof.Proof.Gen.KernelIdeal.Skeleton
import proofs.«107491_j6571299963288_1_alg».proof.Proof.Spec
import proofs.«107491_j6571299963288_1_alg».proof.Proof.LibDense
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- The bias row repeated down a block, read at (p, q), is the row's entry q. -/
theorem bias_apply (x4 : FVec Ideal S1x64 .f32) (h1 : S1x64.ShapeCasts S1x64) (h2 : S1x64.Broadcasts S5000x64)
    (p : Fin 5000) (q : Fin 64) :
    broadcastTo S5000x64 (shapeCast S1x64 x4 h1) h2 (ix2 p q) = x4 (ix2 0 q) := by
  rw [shapeCast_self]
  refine broadcastTo_apply x4 h2 (ix2 p q) (ix2 0 q) fun a => ?_
  match a with
  | ⟨0, _⟩ => show (0 : ℕ) = if (1 : ℕ) = 1 then 0 else _; rw [if_pos rfl]
  | ⟨1, _⟩ => show q.val = if (64 : ℕ) = 1 then 0 else _; rw [if_neg (by decide)]; rfl

/-- The first call's stored value at (p, q): the two products and the bias added, then max with zero. -/
theorem pay0_apply (x0 x1 : Vec Ideal S5000x64 .f32) (x2 x3 : Vec Ideal S64x64 .f32) (x4 : Vec Ideal S1x64 .f32)
    (p : Fin 5000) (q : Fin 64) :
    k0_pay1 (F := Ideal) x0 x1 x2 x3 x4 (ix2 p q)
      = max ((∑ k : Fin 64, x0 (ix2 p k) * x2 (ix2 k q)) + (∑ k : Fin 64, x1 (ix2 p k) * x3 (ix2 k q)) + x4 (ix2 0 q))
          (Ideal.ofBits .f32 0x00000000#32) := by
  unfold k0_pay1
  rw [maximumf_apply, addf_apply, addf_apply, broadcast_apply, bias_apply]
  simp only [matmul]
  rw [Cert.LibDense.matmul_zero_apply dot_S5000x64_S64x64_S5000x64_1_0_0_1_n_n none rfl rfl rfl rfl rfl rfl _ _ p q,
    Cert.LibDense.matmul_zero_apply dot_S5000x64_S64x64_S5000x64_1_0_0_1_n_n none rfl rfl rfl rfl rfl rfl _ _ p q]
  simp only [truncf_apply, shapeCast_self]
  rfl

/-- The second call's stored value at (p, q): the two products and the bias added. -/
theorem pay1_apply (x0 x1 : Vec Ideal S5000x64 .f32) (x2 x3 : Vec Ideal S64x64 .f32) (x4 : Vec Ideal S1x64 .f32)
    (p : Fin 5000) (q : Fin 64) :
    k1_pay1 (F := Ideal) x0 x1 x2 x3 x4 (ix2 p q)
      = (∑ k : Fin 64, x0 (ix2 p k) * x2 (ix2 k q)) + (∑ k : Fin 64, x1 (ix2 p k) * x3 (ix2 k q)) + x4 (ix2 0 q) := by
  unfold k1_pay1
  rw [addf_apply, addf_apply, bias_apply]
  simp only [matmul]
  rw [Cert.LibDense.matmul_zero_apply dot_S5000x64_S64x64_S5000x64_1_0_0_1_n_n none rfl rfl rfl rfl rfl rfl _ _ p q,
    Cert.LibDense.matmul_zero_apply dot_S5000x64_S64x64_S5000x64_1_0_0_1_n_n none rfl rfl rfl rfl rfl rfl _ _ p q]
  simp only [truncf_apply, shapeCast_self]

end Cert.KernelIdeal.Hand

end
-- ==== Proof.KBlocks.lean ====
/-
  From blocks to arrays: what each of the two calls leaves in its result array.

  The grid has twenty points; point `t` reads rows 5000·t … 5000·t + 4999 of the features and of the aggregated
  means, the two weight matrices whole and the bias row, and writes back rows 5000·t … of the result. Entry by
  entry the written block is the layer's value at those rows (the body's value at an entry, read through the
  blocks), and the twenty blocks cover the array, so the array ends holding the layer of the arrays the call
  finds: with max(·, 0) after the first call, without it after the second. Stated for any contents `V` the call is
  entered with.
-/
import proofs.«107491_j6571299963288_1_alg».proof.Proof.Gen.KernelIdeal.Frame
import proofs.«107491_j6571299963288_1_alg».proof.Proof.KBody
import proofs.«107491_j6571299963288_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-buffer access, spelt as a function. -/
theorem hz : (![0, 0] : Fin 2 → Nat) = fun _ => 0 := funext fun a => by fin_cases a <;> rfl

/-- The bias as the kernel holds it, one row of 64, read as a vector of 64. -/
abbrev biasOf (B : FVec Ideal S1x64 .f32) : FVec Ideal Cert.Sage.Bias .f32 := fun j => B (ix2 0 (j 0))

/-! ## The first call -/

/-- The block index of every window at every grid point: the row-blocked windows (features, means, result)
    sit at block row `t`, the weights and the bias at block (0, 0). -/
theorem idx0 : ∀ t : Fin cfg0.N, win0_0.index t 0 = t.val ∧ win0_0.index t 1 = 0 ∧ win0_1.index t 0 = t.val ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = t.val ∧ win0_5.index t 1 = 0 :=
  (by decide +kernel : ∀ t : Fin grid0.N, _)

/-- If the blocks a point holds are rows `5000·T …` of the features and of the means, the weights whole and the
    bias row, then entry (p, q) of what the body stores is the layer's entry (5000·T + p, q). -/
theorem point_hidden (X M : FVec Ideal Cert.Sage.Nodes .f32) (Ws Wn : FVec Ideal Cert.Sage.Wt .f32) (B : FVec Ideal S1x64 .f32)
    (T : ℕ) (hT : T < 20) (x0 x1 : Vec Ideal S5000x64 .f32) (x2 x3 : Vec Ideal S64x64 .f32) (x4 : Vec Ideal S1x64 .f32)
    (h0 : ∀ (p : Fin 5000) (k : Fin 64), x0 (ix2 p k) = X (ix2 ⟨T * 5000 + p.val, by have := p.isLt; omega⟩ k))
    (h1 : ∀ (p : Fin 5000) (k : Fin 64), x1 (ix2 p k) = M (ix2 ⟨T * 5000 + p.val, by have := p.isLt; omega⟩ k))
    (h2 : ∀ (k q : Fin 64), x2 (ix2 k q) = Ws (ix2 k q)) (h3 : ∀ (k q : Fin 64), x3 (ix2 k q) = Wn (ix2 k q))
    (h4 : ∀ q : Fin 64, x4 (ix2 0 q) = B (ix2 0 q)) (p : Fin 5000) (q : Fin 64) :
    k0_pay1 (F := Ideal) x0 x1 x2 x3 x4 (ix2 p q)
      = Cert.Sage.hidden X M Ws Wn (biasOf B) (ix2 ⟨T * 5000 + p.val, by have := p.isLt; omega⟩ q) := by
  rw [pay0_apply]
  unfold Cert.Sage.hidden Cert.Sage.lin
  simp only [h0, h1, h2, h3, h4]

/-- What grid point `t` writes back is block `t` of the layer applied to the arrays as the call finds them. -/
theorem flushed0 (c : Dev nD) (t : Fin cfg0.N) :
    (dat0 V c).flushed 5 t = ((cfg0.win 5).blk t).view.read (Elt Ideal)
      (Cert.Sage.hidden (V c main_arg0) (V c main_v18) (V c main_arg3) (V c main_arg4) (biasOf (V c main_v19))) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  funext j
  obtain ⟨e00, e01, e10, e11, e20, e21, e30, e31, e40, e41, e50, e51⟩ := idx0 t
  have hT : t.val < 20 := t.isLt.trans_eq N_0
  have h0 : (j 0).val < 5000 := (j 0).isLt
  have h1 : (j 1).val < 64 := (j 1).isLt
  have ej : (win0 5).xinj (grid0.coords t) j = ix2 (⟨(j 0).val, h0⟩ : Fin 5000) (⟨(j 1).val, h1⟩ : Fin 64) :=
    funext fun a => Fin.ext (by match a with | ⟨0, _⟩ => rfl | ⟨1, _⟩ => rfl)
  have ee : ((View.whole main_v20).slice ((win0 5).rect t)).emb j
      = ix2 (⟨t.val * 5000 + (j 0).val, by omega⟩ : Fin 100000) (⟨(j 1).val, h1⟩ : Fin 64) :=
    funext fun a => Fin.ext (by
      match a with
      | ⟨0, _⟩ => show win0_5.index t 0 * 5000 + 1 * (j 0).val = t.val * 5000 + (j 0).val; rw [e50]; omega
      | ⟨1, _⟩ => show win0_5.index t 1 * 64 + 1 * (j 1).val = (j 1).val; rw [e51]; omega)
  rw [View.read_apply]
  show k0_pay1 _ _ _ _ _ ((win0 5).xinj (grid0.coords t) j)
    = Cert.Sage.hidden _ _ _ _ _ (((View.whole main_v20).slice ((win0 5).rect t)).emb j)
  rw [ej, ee]
  refine point_hidden (V c main_arg0) (V c main_v18) (V c main_arg3) (V c main_arg4) (V c main_v19) t.val hT
    (iblk0 V c 0 t) (iblk0 V c 1 t) (iblk0 V c 2 t) (iblk0 V c 3 t) (iblk0 V c 4 t) ?_ ?_ ?_ ?_ ?_ _ _
  · intro p k
    unfold iblk0
    rw [View.read_apply]
    show V c main_arg0 (((cfg0.win 0).blk t).view.emb (ix2 p k)) = V c main_arg0 _
    refine congrArg (V c main_arg0) (funext fun a => Fin.ext ?_)
    match a with
    | ⟨0, _⟩ => show win0_0.index t 0 * 5000 + 1 * p.val = t.val * 5000 + p.val; rw [e00]; omega
    | ⟨1, _⟩ => show win0_0.index t 1 * 64 + 1 * k.val = k.val; rw [e01]; omega
  · intro p k
    unfold iblk0
    rw [View.read_apply]
    show V c main_v18 (((cfg0.win 1).blk t).view.emb (ix2 p k)) = V c main_v18 _
    refine congrArg (V c main_v18) (funext fun a => Fin.ext ?_)
    match a with
    | ⟨0, _⟩ => show win0_1.index t 0 * 5000 + 1 * p.val = t.val * 5000 + p.val; rw [e10]; omega
    | ⟨1, _⟩ => show win0_1.index t 1 * 64 + 1 * k.val = k.val; rw [e11]; omega
  · intro k q
    unfold iblk0
    rw [View.read_apply]
    show V c main_arg3 (((cfg0.win 2).blk t).view.emb (ix2 k q)) = V c main_arg3 _
    refine congrArg (V c main_arg3) (funext fun a => Fin.ext ?_)
    match a with
    | ⟨0, _⟩ => show win0_2.index t 0 * 64 + 1 * k.val = k.val; rw [e20]; omega
    | ⟨1, _⟩ => show win0_2.index t 1 * 64 + 1 * q.val = q.val; rw [e21]; omega
  · intro k q
    unfold iblk0
    rw [View.read_apply]
    show V c main_arg4 (((cfg0.win 3).blk t).view.emb (ix2 k q)) = V c main_arg4 _
    refine congrArg (V c main_arg4) (funext fun a => Fin.ext ?_)
    match a with
    | ⟨0, _⟩ => show win0_3.index t 0 * 64 + 1 * k.val = k.val; rw [e30]; omega
    | ⟨1, _⟩ => show win0_3.index t 1 * 64 + 1 * q.val = q.val; rw [e31]; omega
  · intro q
    unfold iblk0
    rw [View.read_apply]
    show V c main_v19 (((cfg0.win 4).blk t).view.emb (ix2 0 q)) = V c main_v19 _
    refine congrArg (V c main_v19) (funext fun a => Fin.ext ?_)
    match a with
    | ⟨0, _⟩ => show win0_4.index t 0 * 1 + 1 * 0 = 0; rw [e40]
    | ⟨1, _⟩ => show win0_4.index t 1 * 64 + 1 * q.val = q.val; rw [e41]; omega

/-- Row `r` of the result lies in the block of grid point `r / 5000`: the twenty blocks cover the array, which
    therefore ends holding the layer applied to the arrays as the call finds them. -/
theorem final0 (c : Dev nD) :
    (dat0 V c).arrAt 5 cfg0.N
      = Cert.Sage.hidden (V c main_arg0) (V c main_v18) (V c main_arg3) (V c main_arg4) (biasOf (V c main_v19)) :=
  (dat0 V c).arrAt_eq_of_cover 5 _ (fun t _ => flushed0 V c t) fun i => by
    have hi0 : (i 0).val < 100000 := (i 0).isLt
    have hi1 : (i 1).val < 64 := (i 1).isLt
    let t : Fin cfg0.N := ⟨(i 0).val / 5000, by rw [show cfg0.N = 20 from N_0]; omega⟩
    obtain ⟨-, -, -, -, -, -, -, -, -, -, e50, e51⟩ := idx0 t
    have ht : t.val = (i 0).val / 5000 := rfl
    refine ⟨t, flush0_5 t, ?_⟩
    show i ∈ ((View.whole main_v20).slice (win0_5.rect t)).set
    rw [View.set_slice_whole, Rect.mem_set_unit]
    intro a
    match a with
    | ⟨0, _⟩ =>
      show win0_5.index t 0 * 5000 ≤ (i 0).val ∧ (i 0).val < win0_5.index t 0 * 5000 + 5000
      rw [e50, ht]; omega
    | ⟨1, _⟩ =>
      show win0_5.index t 1 * 64 ≤ (i 1).val ∧ (i 1).val < win0_5.index t 1 * 64 + 64
      rw [e51]; omega

/-! ## The second call -/

/-- The block index of every window at every grid point: the row-blocked windows (features, means, result)
    sit at block row `t`, the weights and the bias at block (0, 0). -/
theorem idx1 : ∀ t : Fin cfg1.N, win1_0.index t 0 = t.val ∧ win1_0.index t 1 = 0 ∧ win1_1.index t 0 = t.val ∧ win1_1.index t 1 = 0
    ∧ win1_2.index t 0 = 0 ∧ win1_2.index t 1 = 0 ∧ win1_3.index t 0 = 0 ∧ win1_3.index t 1 = 0
    ∧ win1_4.index t 0 = 0 ∧ win1_4.index t 1 = 0 ∧ win1_5.index t 0 = t.val ∧ win1_5.index t 1 = 0 :=
  (by decide +kernel : ∀ t : Fin grid1.N, _)

/-- If the blocks a point holds are rows `5000·T …` of the features and of the means, the weights whole and the
    bias row, then entry (p, q) of what the body stores is the layer's entry (5000·T + p, q). -/
theorem point_output (X M : FVec Ideal Cert.Sage.Nodes .f32) (Ws Wn : FVec Ideal Cert.Sage.Wt .f32) (B : FVec Ideal S1x64 .f32)
    (T : ℕ) (hT : T < 20) (x0 x1 : Vec Ideal S5000x64 .f32) (x2 x3 : Vec Ideal S64x64 .f32) (x4 : Vec Ideal S1x64 .f32)
    (h0 : ∀ (p : Fin 5000) (k : Fin 64), x0 (ix2 p k) = X (ix2 ⟨T * 5000 + p.val, by have := p.isLt; omega⟩ k))
    (h1 : ∀ (p : Fin 5000) (k : Fin 64), x1 (ix2 p k) = M (ix2 ⟨T * 5000 + p.val, by have := p.isLt; omega⟩ k))
    (h2 : ∀ (k q : Fin 64), x2 (ix2 k q) = Ws (ix2 k q)) (h3 : ∀ (k q : Fin 64), x3 (ix2 k q) = Wn (ix2 k q))
    (h4 : ∀ q : Fin 64, x4 (ix2 0 q) = B (ix2 0 q)) (p : Fin 5000) (q : Fin 64) :
    k1_pay1 (F := Ideal) x0 x1 x2 x3 x4 (ix2 p q)
      = Cert.Sage.output X M Ws Wn (biasOf B) (ix2 ⟨T * 5000 + p.val, by have := p.isLt; omega⟩ q) := by
  rw [pay1_apply]
  unfold Cert.Sage.output Cert.Sage.lin
  simp only [h0, h1, h2, h3, h4]

/-- What grid point `t` writes back is block `t` of the layer applied to the arrays as the call finds them. -/
theorem flushed1 (c : Dev nD) (t : Fin cfg1.N) :
    (dat1 V c).flushed 5 t = ((cfg1.win 5).blk t).view.read (Elt Ideal)
      (Cert.Sage.output (V c main_v20) (V c main_v39) (V c main_arg6) (V c main_arg7) (biasOf (V c main_v40))) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  funext j
  obtain ⟨e00, e01, e10, e11, e20, e21, e30, e31, e40, e41, e50, e51⟩ := idx1 t
  have hT : t.val < 20 := t.isLt.trans_eq N_1
  have h0 : (j 0).val < 5000 := (j 0).isLt
  have h1 : (j 1).val < 64 := (j 1).isLt
  have ej : (win1 5).xinj (grid1.coords t) j = ix2 (⟨(j 0).val, h0⟩ : Fin 5000) (⟨(j 1).val, h1⟩ : Fin 64) :=
    funext fun a => Fin.ext (by match a with | ⟨0, _⟩ => rfl | ⟨1, _⟩ => rfl)
  have ee : ((View.whole main_v41).slice ((win1 5).rect t)).emb j
      = ix2 (⟨t.val * 5000 + (j 0).val, by omega⟩ : Fin 100000) (⟨(j 1).val, h1⟩ : Fin 64) :=
    funext fun a => Fin.ext (by
      match a with
      | ⟨0, _⟩ => show win1_5.index t 0 * 5000 + 1 * (j 0).val = t.val * 5000 + (j 0).val; rw [e50]; omega
      | ⟨1, _⟩ => show win1_5.index t 1 * 64 + 1 * (j 1).val = (j 1).val; rw [e51]; omega)
  rw [View.read_apply]
  show k1_pay1 _ _ _ _ _ ((win1 5).xinj (grid1.coords t) j)
    = Cert.Sage.output _ _ _ _ _ (((View.whole main_v41).slice ((win1 5).rect t)).emb j)
  rw [ej, ee]
  refine point_output (V c main_v20) (V c main_v39) (V c main_arg6) (V c main_arg7) (V c main_v40) t.val hT
    (iblk1 V c 0 t) (iblk1 V c 1 t) (iblk1 V c 2 t) (iblk1 V c 3 t) (iblk1 V c 4 t) ?_ ?_ ?_ ?_ ?_ _ _
  · intro p k
    unfold iblk1
    rw [View.read_apply]
    show V c main_v20 (((cfg1.win 0).blk t).view.emb (ix2 p k)) = V c main_v20 _
    refine congrArg (V c main_v20) (funext fun a => Fin.ext ?_)
    match a with
    | ⟨0, _⟩ => show win1_0.index t 0 * 5000 + 1 * p.val = t.val * 5000 + p.val; rw [e00]; omega
    | ⟨1, _⟩ => show win1_0.index t 1 * 64 + 1 * k.val = k.val; rw [e01]; omega
  · intro p k
    unfold iblk1
    rw [View.read_apply]
    show V c main_v39 (((cfg1.win 1).blk t).view.emb (ix2 p k)) = V c main_v39 _
    refine congrArg (V c main_v39) (funext fun a => Fin.ext ?_)
    match a with
    | ⟨0, _⟩ => show win1_1.index t 0 * 5000 + 1 * p.val = t.val * 5000 + p.val; rw [e10]; omega
    | ⟨1, _⟩ => show win1_1.index t 1 * 64 + 1 * k.val = k.val; rw [e11]; omega
  · intro k q
    unfold iblk1
    rw [View.read_apply]
    show V c main_arg6 (((cfg1.win 2).blk t).view.emb (ix2 k q)) = V c main_arg6 _
    refine congrArg (V c main_arg6) (funext fun a => Fin.ext ?_)
    match a with
    | ⟨0, _⟩ => show win1_2.index t 0 * 64 + 1 * k.val = k.val; rw [e20]; omega
    | ⟨1, _⟩ => show win1_2.index t 1 * 64 + 1 * q.val = q.val; rw [e21]; omega
  · intro k q
    unfold iblk1
    rw [View.read_apply]
    show V c main_arg7 (((cfg1.win 3).blk t).view.emb (ix2 k q)) = V c main_arg7 _
    refine congrArg (V c main_arg7) (funext fun a => Fin.ext ?_)
    match a with
    | ⟨0, _⟩ => show win1_3.index t 0 * 64 + 1 * k.val = k.val; rw [e30]; omega
    | ⟨1, _⟩ => show win1_3.index t 1 * 64 + 1 * q.val = q.val; rw [e31]; omega
  · intro q
    unfold iblk1
    rw [View.read_apply]
    show V c main_v40 (((cfg1.win 4).blk t).view.emb (ix2 0 q)) = V c main_v40 _
    refine congrArg (V c main_v40) (funext fun a => Fin.ext ?_)
    match a with
    | ⟨0, _⟩ => show win1_4.index t 0 * 1 + 1 * 0 = 0; rw [e40]
    | ⟨1, _⟩ => show win1_4.index t 1 * 64 + 1 * q.val = q.val; rw [e41]; omega

/-- Row `r` of the result lies in the block of grid point `r / 5000`: the twenty blocks cover the array, which
    therefore ends holding the layer applied to the arrays as the call finds them. -/
theorem final1 (c : Dev nD) :
    (dat1 V c).arrAt 5 cfg1.N
      = Cert.Sage.output (V c main_v20) (V c main_v39) (V c main_arg6) (V c main_arg7) (biasOf (V c main_v40)) :=
  (dat1 V c).arrAt_eq_of_cover 5 _ (fun t _ => flushed1 V c t) fun i => by
    have hi0 : (i 0).val < 100000 := (i 0).isLt
    have hi1 : (i 1).val < 64 := (i 1).isLt
    let t : Fin cfg1.N := ⟨(i 0).val / 5000, by rw [show cfg1.N = 20 from N_1]; omega⟩
    obtain ⟨-, -, -, -, -, -, -, -, -, -, e50, e51⟩ := idx1 t
    have ht : t.val = (i 0).val / 5000 := rfl
    refine ⟨t, flush1_5 t, ?_⟩
    show i ∈ ((View.whole main_v41).slice (win1_5.rect t)).set
    rw [View.set_slice_whole, Rect.mem_set_unit]
    intro a
    match a with
    | ⟨0, _⟩ =>
      show win1_5.index t 0 * 5000 ≤ (i 0).val ∧ (i 0).val < win1_5.index t 0 * 5000 + 5000
      rw [e50, ht]; omega
    | ⟨1, _⟩ =>
      show win1_5.index t 1 * 64 ≤ (i 1).val ∧ (i 1).val < win1_5.index t 1 * 64 + 64
      rw [e51]; omega

end Cert.KernelIdeal.Hand

end
-- ==== Proof.KValue.lean ====
/-
  The kernel program's result as one function of its arguments.

  The second call leaves in the result array its layer (no maximum) of what it finds: the first call's output, the
  aggregation of that output along the launch edges, the second layer's weights and bias. The first call's output
  is its layer (with max(·, 0)) of the launch features, their aggregation, the first layer's weights and bias.
  Substituting one into the other is the specification's network over the aggregation.
-/
import proofs.«107491_j6571299963288_1_alg».proof.Proof.KRun
import proofs.«107491_j6571299963288_1_alg».proof.Proof.KHost
import proofs.«107491_j6571299963288_1_alg».proof.Proof.KBlocks
import proofs.«107491_j6571299963288_1_alg».proof.Proof.Spec

set_option maxRecDepth 16384

noncomputable section

namespace Cert.KernelIdeal.Hand

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (ρ : Dev nD → PrngReg)

/-- The first call's bias row, read as a vector, is the first layer's bias. -/
theorem bias_first (c : Dev nD) :
    biasOf (V1 (F := Ideal) m ρ c main_v19) = m ((c : Thread nD τ).loc main_arg5) :=
  funext fun j => (V1_bias m ρ c (j 0)).trans (congrArg (m ((c : Thread nD τ).loc main_arg5)) (eq_ix1 j).symm)

/-- The second call's bias row, read as a vector, is the second layer's bias. -/
theorem bias_second (c : Dev nD) :
    biasOf (V3 (F := Ideal) m ρ c main_v40) = m ((c : Thread nD τ).loc main_arg8) :=
  funext fun j => (V3_bias m ρ c (j 0)).trans (congrArg (m ((c : Thread nD τ).loc main_arg8)) (eq_ix1 j).symm)

/-- The first call's output array: the first layer of the launch features and their aggregation. -/
theorem hidden_value (c : Dev nD) :
    V2 (F := Ideal) m ρ c main_v20
      = Cert.Sage.hidden (m ((c : Thread nD τ).loc main_arg0))
          (Cert.Sage.agg dims (m ((c : Thread nD τ).loc main_arg1)) (m ((c : Thread nD τ).loc main_arg2)) (m ((c : Thread nD τ).loc main_arg0)))
          (m ((c : Thread nD τ).loc main_arg3)) (m ((c : Thread nD τ).loc main_arg4)) (m ((c : Thread nD τ).loc main_arg5)) := by
  rw [V2_x, final0 (V1 m ρ) c, V1_x, V1_mean, V1_ws, V1_wn, bias_first]

/-- The result array: the network over the aggregation, of the launch arguments. -/
theorem value (c : Dev nD) :
    W4 (F := Ideal) m ρ c (Proc.devRef .tc main_v41)
      = Cert.Sage.net (Cert.Sage.agg dims (m ((c : Thread nD τ).loc main_arg1)) (m ((c : Thread nD τ).loc main_arg2)))
          (m ((c : Thread nD τ).loc main_arg0)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  unfold Cert.Sage.net
  rw [W4_result, final1 (V3 m ρ) c, V3_x, V3_mean, V3_ws, V3_wn, bias_second, hidden_value]

/-- The kernel program's run: every weakly fair execution terminates with the result array at the network over the
    aggregation of the launch arguments, the arguments unchanged. -/
theorem run : θ_run defs (onTc (τ := τ) (main (F := Ideal))) ⟨m, fun _ => 0, ρ⟩ (fun r => ∀ c : Dev nD,
      r.2.mem ((c.tc : Thread nD τ).loc main_v41)
        = Cert.Sage.net (Cert.Sage.agg dims (m ((c.tc : Thread nD τ).loc main_arg1)) (m ((c.tc : Thread nD τ).loc main_arg2)))
            (m ((c.tc : Thread nD τ).loc main_arg0)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (value m ρ c), (h c).2⟩) (run_result m ρ)

end Cert.KernelIdeal.Hand

end
-- ==== Proof.RefValue.lean ====
import proofs.«107491_j6571299963288_1_alg».proof.Proof.Gen.ReferenceIdeal.Run
import proofs.«107491_j6571299963288_1_alg».proof.Proof.Gen.ReferenceIdeal.Read
import proofs.«107491_j6571299963288_1_alg».proof.Proof.Spec

/-
  The reference, read against the common specification.

  The reference is a chain of whole-array operations. Its mean aggregation is, operation for operation, the
  specification's `agg` at the reference's own shape records; each of its two dense stages adds
  (x · Wself + b) + mean · Wneigh, which is the specification's (x · Wself + mean · Wneigh) + b with the last two
  summands exchanged. So the value the reference leaves in its result is `net` over `agg`.
-/

noncomputable section

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo

/-- The shape records and shape facts of the reference's aggregation. -/
def dims : Cert.Sage.AggDims :=
  ⟨gather_S100000x64_S1000000x1_S1000000x64_1_0_n_n_0_1_164, scatter_S100000x64_S1000000x1_S1000000x64_1_0_0_1,
   scatter_S100000_S1000000x1_S1000000_n_0_0_1, bcast_S_S1000000, bcast_S1000000_S1000000x1_0, bcast_S_S100000x64,
   bcast_S_S100000, bcast_S100000_S100000x1_0, bcast_S100000x1_S100000x64_0_1⟩

/-! ## The aggregation -/

/-- The first layer's aggregation is `agg` of the input features. -/
theorem agg1_eq (x0 : FVec Ideal S100000x64 .f32) (x1 x2 : Vec Ideal S1000000 .i32) :
    val_main_v18 (F := Ideal) x0 x1 x2 = Cert.Sage.agg dims x1 x2 x0 := by
  unfold val_main_v18 val_main_v9 val_main_v17 val_main_v16 val_main_v15 val_main_v14 val_main_v13 val_main_v12 val_main_v11
    val_main_v10 val_main_v8 val_main_v7 val_main_v6 val_main_v5 val_main_v4 val_main_v3 val_main_v2 val_main_v1 val_main_v0
    val_main_c val_main_c_0 val_main_cst val_main_cst_1 val_main_cst_2 val_main_cst_3
  rfl

/-- The second layer's aggregation is `agg` of the hidden features. -/
theorem agg2_eq (x0 : FVec Ideal S100000x64 .f32) (x1 x2 : Vec Ideal S1000000 .i32) (x3 x4 : FVec Ideal S64x64 .f32)
    (x5 : FVec Ideal S64 .f32) :
    val_main_v44 (F := Ideal) x0 x1 x2 x3 x4 x5
      = Cert.Sage.agg dims x1 x2 (val_main_v25 (F := Ideal) x0 x1 x2 x3 x4 x5) := by
  generalize hy : val_main_v25 (F := Ideal) x0 x1 x2 x3 x4 x5 = y
  unfold val_main_v44 val_main_v35 val_main_v43 val_main_v42 val_main_v41 val_main_v40 val_main_v39 val_main_v38 val_main_v37
    val_main_v36 val_main_v34 val_main_v33 val_main_v32 val_main_v31 val_main_v30 val_main_v29 val_main_v28 val_main_v27 val_main_v26
    val_main_c_4 val_main_c_5 val_main_cst_6 val_main_cst_7 val_main_cst_8 val_main_cst_9
  rw [hy]
  rfl

/-! ## One dense stage -/

/-- The left operand of a product is read at (row of the entry, k). -/
theorem lidx_eq (p : Fin 100000) (q k : Fin 64) : lidx_main_v19 (ix2 p q) k = ix2 p k :=
  funext fun a => Fin.ext (by match a with | ⟨0, _⟩ => rfl | ⟨1, _⟩ => rfl)

/-- The right operand of a product is read at (k, column of the entry). -/
theorem ridx_eq (p : Fin 100000) (q k : Fin 64) : ridx_main_v19 (ix2 p q) k = ix2 k q :=
  funext fun a => Fin.ext (by match a with | ⟨0, _⟩ => rfl | ⟨1, _⟩ => rfl)

/-- The bias, broadcast along the rows, is read at the entry's column. -/
theorem bidx_eq (p : Fin 100000) (q : Fin 64) : idx_main_v20 (idx_main_v21 (ix2 p q)) = ix1 q :=
  funext fun a => Fin.ext (by match a with | ⟨0, _⟩ => rfl)

/-- Entry (p, q) of a product y · w is the sum over k of y (p, k) · w (k, q). -/
theorem prod_apply (y : FVec Ideal S100000x64 .f32) (w : FVec Ideal S64x64 .f32) (p : Fin 100000) (q : Fin 64) :
    val_main_v19 (F := Ideal) y w (ix2 p q) = ∑ k : Fin 64, y (ix2 p k) * w (ix2 k q) :=
  (val_main_v19_apply y w (ix2 p q)).trans (Finset.sum_congr rfl fun k _ => by rw [lidx_eq, ridx_eq])

/-- Entry (p, q) of the row-broadcast bias is b q. -/
theorem bias_apply (b : FVec Ideal S64 .f32) (p : Fin 100000) (q : Fin 64) :
    val_main_v21 (F := Ideal) b (ix2 p q) = b (ix1 q) := by
  rw [val_main_v21_apply, val_main_v20_apply, bidx_eq]

/-- One dense stage as the reference composes it: (x · Wself + b) + mean · Wneigh. -/
def dense (x mean : FVec Ideal S100000x64 .f32) (ws wn : FVec Ideal S64x64 .f32) (b : FVec Ideal S64 .f32) :
    FVec Ideal S100000x64 .f32 :=
  addf (val_main_v22 (F := Ideal) x ws b) (val_main_v19 (F := Ideal) mean wn)

/-- The reference's dense stage is the specification's linear stage: the two last summands are exchanged. -/
theorem dense_apply (x mean : FVec Ideal S100000x64 .f32) (ws wn : FVec Ideal S64x64 .f32) (b : FVec Ideal S64 .f32)
    (p : Fin 100000) (q : Fin 64) :
    dense x mean ws wn b (ix2 p q) = Cert.Sage.lin x mean ws wn b p q := by
  have h : dense x mean ws wn b (ix2 p q)
      = ((val_main_v19 (F := Ideal) x ws (ix2 p q) : EReal) + (val_main_v21 (F := Ideal) b (ix2 p q) : EReal))
        + (val_main_v19 (F := Ideal) mean wn (ix2 p q) : EReal) := rfl
  rw [h, prod_apply, prod_apply, bias_apply]
  exact Cert.Sage.add_swap_last _ _ _

/-- The first layer before its maximum is a dense stage over the input and its aggregation. -/
theorem v24_eq (x0 : FVec Ideal S100000x64 .f32) (x1 x2 : Vec Ideal S1000000 .i32) (x3 x4 : FVec Ideal S64x64 .f32)
    (x5 : FVec Ideal S64 .f32) :
    val_main_v24 (F := Ideal) x0 x1 x2 x3 x4 x5 = dense x0 (val_main_v18 (F := Ideal) x0 x1 x2) x3 x4 x5 := rfl

/-- The result is a dense stage over the hidden features and their aggregation. -/
theorem v50_eq (x0 : FVec Ideal S100000x64 .f32) (x1 x2 : Vec Ideal S1000000 .i32) (x3 x4 : FVec Ideal S64x64 .f32)
    (x5 : FVec Ideal S64 .f32) (x6 x7 : FVec Ideal S64x64 .f32) (x8 : FVec Ideal S64 .f32) :
    val_main_v50 (F := Ideal) x0 x1 x2 x3 x4 x5 x6 x7 x8
      = dense (val_main_v25 (F := Ideal) x0 x1 x2 x3 x4 x5) (val_main_v44 (F := Ideal) x0 x1 x2 x3 x4 x5) x6 x7 x8 := rfl

/-! ## The two layers -/

/-- The hidden features are the specification's first layer over the aggregated input. -/
theorem hidden_eq (x0 : FVec Ideal S100000x64 .f32) (x1 x2 : Vec Ideal S1000000 .i32) (x3 x4 : FVec Ideal S64x64 .f32)
    (x5 : FVec Ideal S64 .f32) :
    val_main_v25 (F := Ideal) x0 x1 x2 x3 x4 x5 = Cert.Sage.hidden x0 (Cert.Sage.agg dims x1 x2 x0) x3 x4 x5 := by
  rw [← agg1_eq]
  funext i
  obtain ⟨p, q, rfl⟩ : ∃ (p : Fin 100000) (q : Fin 64), i = ix2 p q := ⟨i 0, i 1, eq_ix2 i⟩
  rw [val_main_v25_apply, v24_eq, dense_apply, val_main_call0_v0_apply, val_main_call0_cst_apply]
  rfl

/-- The result is the specification's network over the aggregation. -/
theorem result_eq (x0 : FVec Ideal S100000x64 .f32) (x1 x2 : Vec Ideal S1000000 .i32) (x3 x4 : FVec Ideal S64x64 .f32)
    (x5 : FVec Ideal S64 .f32) (x6 x7 : FVec Ideal S64x64 .f32) (x8 : FVec Ideal S64 .f32) :
    val_main_v50 (F := Ideal) x0 x1 x2 x3 x4 x5 x6 x7 x8
      = Cert.Sage.net (Cert.Sage.agg dims x1 x2) x0 x3 x4 x5 x6 x7 x8 := by
  unfold Cert.Sage.net
  rw [← hidden_eq x0 x1 x2 x3 x4 x5, ← agg2_eq, v50_eq]
  funext i
  obtain ⟨p, q, rfl⟩ : ∃ (p : Fin 100000) (q : Fin 64), i = ix2 p q := ⟨i 0, i 1, eq_ix2 i⟩
  exact dense_apply _ _ _ _ _ p q

/-! ## The reference's run -/

/-- On every device every weakly fair execution of the reference terminates with its result at the specification's
    network over the aggregation of the arguments' launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50)
        = Cert.Sage.net (Cert.Sage.agg dims (m ((c.tc : Thread nD τ).loc main_arg1)) (m ((c.tc : Thread nD τ).loc main_arg2)))
            (m ((c.tc : Thread nD τ).loc main_arg0)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono
    (fun _ h c => ⟨(h c).1.trans ((val_main_v50_eq m c).trans (result_eq _ _ _ _ _ _ _ _ _)), (h c).2⟩)
    (Cert.ReferenceIdeal.Value.run (F := Ideal) m ρ)

end Cert.ReferenceIdeal.RefValue

end
-- ==== Proof.lean ====
/-
  The certificate of a two-layer mean-aggregating graph network (100000 nodes, 64 features, a million edges): the
  kernel program against its all-host reference, over the extended reals.

  One layer sends features x to  x · Wself + mean(x) · Wneigh + b,  mean(x) being the in-neighbour average (rows
  gathered by source, scatter-added by destination, divided by max(degree, 1)); the first layer is followed by
  max(·, 0). The kernel program computes the aggregation by the same host operations as the reference and the dense
  stage in a pipelined call over twenty row blocks; the reference computes the dense stage by two whole-array
  products. On extended reals the narrowing of the kernel's operands is the identity, a product into a zero
  accumulator is the reference's product, and the kernel's (x·Wself + mean·Wneigh) + b is the reference's
  (x·Wself + b) + mean·Wneigh since addition is commutative and associative there: no finiteness is used.
  Both results are therefore the same function `net` of the arguments over the same aggregation (Proof/Spec.lean):
  the kernel's by Proof/KValue.lean (the run, the host stretches, the blocks and the body read in turn), the
  reference's by Proof/RefValue.lean. The two programs print their own copies of the aggregation's shape records;
  the copies are equal field by field.
-/
import proofs.«107491_j6571299963288_1_alg».proof.Defs
import proofs.«107491_j6571299963288_1_alg».proof.Proof.Gen.Kernel
import proofs.«107491_j6571299963288_1_alg».proof.Proof.Gen.Kernel.Skeleton
import proofs.«107491_j6571299963288_1_alg».proof.Proof.Gen.Kernel.Launch
import proofs.«107491_j6571299963288_1_alg».proof.Proof.Gen.Kernel.Points
import proofs.«107491_j6571299963288_1_alg».proof.Proof.Gen.Kernel.Frame
import proofs.«107491_j6571299963288_1_alg».proof.Proof.Gen.KernelIdeal
import proofs.«107491_j6571299963288_1_alg».proof.Proof.Gen.KernelIdeal.Skeleton
import proofs.«107491_j6571299963288_1_alg».proof.Proof.Gen.KernelIdeal.Launch
import proofs.«107491_j6571299963288_1_alg».proof.Proof.Gen.KernelIdeal.Points
import proofs.«107491_j6571299963288_1_alg».proof.Proof.Gen.KernelIdeal.Frame
import proofs.«107491_j6571299963288_1_alg».proof.Proof.Gen.ReferenceIdeal
import proofs.«107491_j6571299963288_1_alg».proof.Proof.Gen.ReferenceIdeal.Run
import proofs.«107491_j6571299963288_1_alg».proof.Proof.Gen.ReferenceIdeal.Read
import proofs.«107491_j6571299963288_1_alg».proof.Proof.Gen.Pre_finite_inputs
import proofs.«107491_j6571299963288_1_alg».proof.Proof.KValue
import proofs.«107491_j6571299963288_1_alg».proof.Proof.RefValue
import Idealize.ShloMosaic.Adequacy
import Idealize.ShloMosaic.Init

noncomputable section

namespace Cert.Proof

open Idealize.ShloMosaic Idealize.SL.Sem

/-- The two programs' copies of the aggregation's shape records are one. -/
theorem dims_eq : Cert.ReferenceIdeal.RefValue.dims = Cert.KernelIdeal.Hand.dims := rfl

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network over the aggregation of the
    kernel program's arguments in their result arrays. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6, a7, a8⟩ := hagree c
  rw [a0, a1, a2, a3, a4, a5, a6, a7, a8, dims_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
